-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x1024x64 : Shape := ⟨4, ![1, 1, 1024, 64]⟩
abbrev S1x1x2048x64 : Shape := ⟨4, ![1, 1, 2048, 64]⟩
abbrev S1x1024x2048 : Shape := ⟨3, ![1, 1024, 2048]⟩
abbrev S1x1x1024x2048 : Shape := ⟨4, ![1, 1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S2x2048x2048.size a
  hwx0_3 : ∀ i : grid0.Coords, EltTy.bits .i32 = 32 ∨ (Rect.block (s := S2x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S_ : Shape := ⟨0, ![]⟩
abbrev S2x16x2048x2048 : Shape := ⟨4, ![2, 16, 2048, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x1x2048x2048, .i32⟩
  | .hbm, ⟨12, _⟩ => ⟨S_, .i32⟩
  | .hbm, ⟨13, _⟩ => ⟨S2x1x2048x2048, .i32⟩
  | .hbm, ⟨14, _⟩ => ⟨S2x1x2048x2048, .i1⟩
  | .hbm, ⟨15, _⟩ => ⟨S_, .f32⟩
  | .hbm, ⟨16, _⟩ => ⟨S_, .f32⟩
  | .hbm, ⟨17, _⟩ => ⟨S2x16x2048x2048, .i1⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with an integer mask, as mathematics on the extended reals.

  For one query row `q` (64 reals), the key matrix `k` (2048 rows of 64) and the mask row `mk` (2048 words):
  the score against key `c` is `(∑ e, q e * k c e) * 1/8` where the mask word is positive and the stand-in
  `-1e9` elsewhere; the row's weights are the softmax of the scores — `exp (score - max) / ∑ exp (score - max)`,
  the maximum taken from `-∞` —, and the output row is the weights' combination of the value rows.
  The whole arrays are these row functions at every (batch, head, query row).

  Both programs spell the constants `1/8`, `-1e9`, `-∞` and `0` by the same words, so they are kept as words;
  the one constant the two programs spell differently is the scale: the reference divides `1` by `sqrt 64`,
  which over the reals is the `1/8` the kernel multiplies by (`scale_eq`).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word `64.0` denotes the real 64. -/
theorem ofBits_64 : Ideal.ofBits .f32 0x42800000#32 = ((64 : ℝ) : EReal) := by
  simp [Ideal.ofBits, Ideal.ieee, -EReal.coe_mul]; norm_num

/-- The word `1.0` denotes the real 1. -/
theorem ofBits_one : Ideal.ofBits .f32 0x3F800000#32 = ((1 : ℝ) : EReal) := by
  simp [Ideal.ofBits, Ideal.ieee, -EReal.coe_mul]; norm_num

/-- The word `0.125` denotes the real 1/8. -/
theorem ofBits_eighth : Ideal.ofBits .f32 0x3E000000#32 = ((1 / 8 : ℝ) : EReal) := by
  simp [Ideal.ofBits, Ideal.ieee, -EReal.coe_mul]; norm_num

/-- `1 / sqrt 64 = 1/8`: the square root of 64 is 8 exactly. -/
theorem scale_eq :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]; exact Real.sqrt_sq (by norm_num)
  rw [ofBits_64, ofBits_one, ofBits_eighth, Ideal.sqrt_coe, if_neg (by norm_num), h8,
    Ideal.div_coe (by norm_num : (8 : ℝ) ≠ 0), ← EReal.coe_mul]
  norm_num

/-! ## One query row -/

section Row

variable (q : Fin 64 → EReal) (k : Fin 2048 → Fin 64 → EReal) (mk : Fin 2048 → BitVec 32)

/-- The masked, scaled score of the query row against key row `c`. -/
def score (c : Fin 2048) : EReal :=
  Scalar.select (IntOp.cmpi .sgt (mk c) 0#32)
    ((∑ e : Fin 64, q e * k c e) * Ideal.ofBits .f32 0x3E000000#32) (Ideal.ofBits .f32 0xCE6E6B28#32)

/-- The row's largest score, from `-∞`. -/
def rowMax : EReal :=
  (Finset.univ : Finset (Fin 2048)).fold max (Ideal.ofBits .f32 0xFF800000#32) (score q k mk)

/-- The exponential of a score less the row's maximum. -/
def expo (c : Fin 2048) : EReal := Ideal.exp (score q k mk c - rowMax q k mk)

/-- The softmax weight of key `c`. -/
def weight (c : Fin 2048) : EReal := Ideal.div (expo q k mk c) (∑ c' : Fin 2048, expo q k mk c')

/-- The output row: the weights' combination of the value rows. -/
def outRow (v : Fin 2048 → Fin 64 → EReal) (e : Fin 64) : EReal := ∑ c : Fin 2048, weight q k mk c * v c e

end Row

/-! ## The whole arrays -/

/-- Query row (a, b, r) of a `[2, 16, 2048, 64]` array. -/
abbrev qrow (Q : (⟨4, ![2, 16, 2048, 64]⟩ : Shape).Idx → EReal) (a : Fin 2) (b : Fin 16) (r : Fin 2048) : Fin 64 → EReal :=
  fun e => Q (ix4 a b r e)

/-- The key (or value) matrix of batch `a`, head `b`. -/
abbrev kmat (K : (⟨4, ![2, 16, 2048, 64]⟩ : Shape).Idx → EReal) (a : Fin 2) (b : Fin 16) : Fin 2048 → Fin 64 → EReal :=
  fun c e => K (ix4 a b c e)

/-- Mask row (a, r) of the `[2, 2048, 2048]` mask: shared by the heads. -/
abbrev mrow (M : (⟨3, ![2, 2048, 2048]⟩ : Shape).Idx → BitVec 32) (a : Fin 2) (r : Fin 2048) : Fin 2048 → BitVec 32 :=
  fun c => M (ix3 a r c)

/-- The attention weights `[2, 16, 2048, 2048]`: at (a, b, r, c) the weight of key `c` for query row (a, b, r). -/
def weights (Q K : (⟨4, ![2, 16, 2048, 64]⟩ : Shape).Idx → EReal) (M : (⟨3, ![2, 2048, 2048]⟩ : Shape).Idx → BitVec 32) :
    (⟨4, ![2, 16, 2048, 2048]⟩ : Shape).Idx → EReal := fun i =>
  weight (qrow Q (i 0) (i 1) (i 2)) (kmat K (i 0) (i 1)) (mrow M (i 0) (i 2)) (i 3)

/-- The attention output `[2, 16, 2048, 64]`: at (a, b, r, e) entry `e` of the output row of query row (a, b, r). -/
def output (Q K V : (⟨4, ![2, 16, 2048, 64]⟩ : Shape).Idx → EReal) (M : (⟨3, ![2, 2048, 2048]⟩ : Shape).Idx → BitVec 32) :
    (⟨4, ![2, 16, 2048, 64]⟩ : Shape).Idx → EReal := fun i =>
  outRow (qrow Q (i 0) (i 1) (i 2)) (kmat K (i 0) (i 1)) (mrow M (i 0) (i 2)) (kmat V (i 0) (i 1)) (i 3)

end Cert.Attn

end
-- ==== Proof.AttnRef.lean ====
/-
  The reference's two results, read index by index, are the attention weights and output of AttnSpec.

  The reference computes the scores with one batched contraction over the 64 features, scales them by
  `1 / sqrt 64` (which is `1/8`), replaces masked positions by `-1e9`, and applies the softmax along the key axis:
  the row maximum is a fold of `max` from `-∞` (taking the maximum with `-∞` once more changes nothing), the
  denominator is `0 +` the row's sum of exponentials, and the output is the batched contraction of the weights with
  the values over the key axis.
-/
import proofs.«404587_j2757369004072_3_alg».proof.Proof.Gen.ReferenceIdeal.Read
import proofs.«404587_j2757369004072_3_alg».proof.Proof.AttnSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Attn

variable (x0 x1 x2 : (⟨S2x16x2048x64, .f32⟩ : BufTy).Contents (Elt Ideal)) (x3 : (⟨S2x2048x2048, .i32⟩ : BufTy).Contents (Elt Ideal))

/-- The broadcast scale `1 / sqrt 64` is `1/8` everywhere. -/
theorem ref_scale (i : S2x16x2048x2048.Idx) : val_main_v3 (F := Ideal) i = Ideal.ofBits .f32 0x3E000000#32 := by
  rw [val_main_v3_apply, val_main_v1_apply, val_main_cst_0_apply, val_main_v0_apply, val_main_cst_apply]
  exact scale_eq

/-- The masked, scaled similarity at (a, b, r, c) is the score of query row (a, b, r) against key `c`. -/
theorem ref_score (a : Fin 2) (b : Fin 16) (r c : Fin 2048) :
    val_main_v8 (F := Ideal) x0 x1 x3 (ix4 a b r c) = score (qrow x0 a b r) (kmat x1 a b) (mrow x3 a r) c := by
  have hm : idx_main_v5 (idx_main_call0_v1 (ix4 a b r c)) = ix3 a r c :=
    funext fun e => Fin.ext (by match e with | ⟨0, _⟩ => rfl | ⟨1, _⟩ => rfl | ⟨2, _⟩ => rfl)
  have hl : ∀ k : Fin 64, lidx_main_v2 (ix4 a b r c) k = ix4 a b r k := fun k =>
    funext fun e => Fin.ext (by match e with | ⟨0, _⟩ => rfl | ⟨1, _⟩ => rfl | ⟨2, _⟩ => rfl | ⟨3, _⟩ => rfl)
  have hr : ∀ k : Fin 64, ridx_main_v2 (ix4 a b r c) k = ix4 a b c k := fun k =>
    funext fun e => Fin.ext (by match e with | ⟨0, _⟩ => rfl | ⟨1, _⟩ => rfl | ⟨2, _⟩ => rfl | ⟨3, _⟩ => rfl)
  rw [val_main_v8_apply, val_main_call0_v1_apply, val_main_v7_apply, val_main_v5_apply, val_main_v6_apply, val_main_c_apply,
    val_main_v4_apply, val_main_v2_apply, ref_scale, val_main_call0_v2_apply, val_main_call0_v0_apply, val_main_cst_1_apply, hm]
  simp only [hl, hr]
  rfl

/-- The row maximum at (a, b, r). -/
theorem ref_rowMax (a : Fin 2) (b : Fin 16) (r : Fin 2048) :
    val_main_v11 (F := Ideal) x0 x1 x3 (ix3 a b r) = rowMax (qrow x0 a b r) (kmat x1 a b) (mrow x3 a r) := by
  have hred : S2x16x2048x2048.Reduces [3] S2x16x2048 := by decide
  rw [val_main_v11_apply, val_main_v10_apply, val_main_cst_3_apply]
  unfold val_main_v9
  rw [Host.reduce_eq_fold_single FloatOps.maximumf _ _ reducesTo_S2x16x2048x2048_S2x16x2048_d3 hred h_S_ (ix3 a b r)]
  rw [val_main_cst_2_apply]
  have hf : (val_main_v8 (F := Ideal) x0 x1 x3 ∘ hred.lift (ix3 a b r)) = score (qrow x0 a b r) (kmat x1 a b) (mrow x3 a r) :=
    funext fun (c : Fin 2048) => by
      have hi : hred.lift (ix3 a b r) c = ix4 a b r c :=
        funext fun e => Fin.ext (by match e with | ⟨0, _⟩ => rfl | ⟨1, _⟩ => rfl | ⟨2, _⟩ => rfl | ⟨3, _⟩ => rfl)
      show val_main_v8 (F := Ideal) x0 x1 x3 (hred.lift (ix3 a b r) c) = _
      rw [hi, ref_score]
  rw [hf]
  unfold rowMax
  exact max_eq_right ((Finset.le_fold_max _).2 (Or.inl le_rfl))

/-- The exponential at (a, b, r, c). -/
theorem ref_expo (a : Fin 2) (b : Fin 16) (r c : Fin 2048) :
    val_main_v15 (F := Ideal) x0 x1 x3 (ix4 a b r c) = expo (qrow x0 a b r) (kmat x1 a b) (mrow x3 a r) c := by
  have hi : idx_main_v12 (idx_main_v13 (ix4 a b r c)) = ix3 a b r :=
    funext fun e => Fin.ext (by match e with | ⟨0, _⟩ => rfl | ⟨1, _⟩ => rfl | ⟨2, _⟩ => rfl)
  rw [val_main_v15_apply, val_main_v14_apply, val_main_v13_apply, val_main_v12_apply, hi, ref_rowMax, ref_score]
  rfl

/-- The softmax weight at (a, b, r, c). -/
theorem ref_weight (a : Fin 2) (b : Fin 16) (r c : Fin 2048) :
    val_main_v19 (F := Ideal) x0 x1 x3 (ix4 a b r c) = weight (qrow x0 a b r) (kmat x1 a b) (mrow x3 a r) c := by
  have hi : idx_main_v17 (idx_main_v18 (ix4 a b r c)) = ix3 a b r :=
    funext fun e => Fin.ext (by match e with | ⟨0, _⟩ => rfl | ⟨1, _⟩ => rfl | ⟨2, _⟩ => rfl)
  have hk : ∀ k : Fin 2048, idx_main_v16 (ix3 a b r) k = ix4 a b r k := fun k =>
    funext fun e => Fin.ext (by match e with | ⟨0, _⟩ => rfl | ⟨1, _⟩ => rfl | ⟨2, _⟩ => rfl | ⟨3, _⟩ => rfl)
  rw [val_main_v19_apply, val_main_v18_apply, val_main_v17_apply, hi, val_main_v16_apply, val_main_cst_4_apply, ref_expo]
  simp only [hk, ref_expo]
  show Ideal.div _ (Ideal.ofBits .f32 0x00000000#32 + _) = _
  rw [Ideal.ofBits_zero_f32, zero_add]
  rfl

/-- The reference's second result is the attention weights. -/
theorem ref_weights : val_main_v19 (F := Ideal) x0 x1 x3 = weights x0 x1 x3 := by
  funext i
  obtain ⟨a, b, r, c, rfl⟩ : ∃ (a : Fin 2) (b : Fin 16) (r c : Fin 2048), i = ix4 a b r c := ⟨i 0, i 1, i 2, i 3, eq_ix4 i⟩
  exact ref_weight x0 x1 x3 a b r c

/-- The reference's first result is the attention output. -/
theorem ref_output : val_main_v20 (F := Ideal) x0 x1 x2 x3 = output x0 x1 x2 x3 := by
  funext i
  obtain ⟨a, b, r, e, rfl⟩ : ∃ (a : Fin 2) (b : Fin 16) (r : Fin 2048) (e : Fin 64), i = ix4 a b r e := ⟨i 0, i 1, i 2, i 3, eq_ix4 i⟩
  have hl : ∀ k : Fin 2048, lidx_main_v20 (ix4 a b r e) k = ix4 a b r k := fun k =>
    funext fun d => Fin.ext (by match d with | ⟨0, _⟩ => rfl | ⟨1, _⟩ => rfl | ⟨2, _⟩ => rfl | ⟨3, _⟩ => rfl)
  have hr : ∀ k : Fin 2048, ridx_main_v20 (ix4 a b r e) k = ix4 a b k e := fun k =>
    funext fun d => Fin.ext (by match d with | ⟨0, _⟩ => rfl | ⟨1, _⟩ => rfl | ⟨2, _⟩ => rfl | ⟨3, _⟩ => rfl)
  rw [val_main_v20_apply]
  simp only [hl, hr, ref_weight]
  rfl

end Cert.ReferenceIdeal.RefValue

end
-- ==== Proof.AttnBody.lean ====
/-
  What the kernel body computes from its blocks, index by index, at the ideal values.

  The body holds one query block `v0` (1024 rows of 64), the key block `v2` and value block `v4` (2048 rows of
  64) and the mask block `v6` (1024 rows of 2048 words). Its two results are: the row softmax of the masked, scaled
  scores, whose entry (r, c) is the softmax weight of key `c` for the block's query row `r`; and the product of
  those weights with the value block, whose entry (r, e) is entry `e` of the output row of query row `r`.

  The pieces: a matrix product into a zero accumulator is the plain sum of products over the contracted axis; a
  row reduction that is cast to a column and broadcast back along the row reads, at (r, c), as the reduction of
  row `r`; a maximum-reduction from `-∞` is the fold of `max` over the row, a sum-reduction the row's sum.
-/
import proofs.«404587_j2757369004072_3_alg».proof.Proof.Gen.KernelIdeal.Skeleton
import proofs.«404587_j2757369004072_3_alg».proof.Proof.AttnSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx Cert.Attn

/-! ## The two matrix products -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries times keys (both contracted over their 64 features) into zero: entry (r, c) is the sum over the
    features of query row `r` times key row `c`. -/
theorem qk_apply (v1 : FVec Ideal S1024x64 .f32) (v3 : FVec Ideal S2048x64 .f32) (r : Fin 1024) (c : Fin 2048) :
    matmul (F := Ideal) dot_S1024x64_S2048x64_S1024x2048_1_1_0_0_n_n (some .fp32) v1 v3 (constant (F := Ideal) S1024x2048 .f32 0x00000000#32) (ix2 r c)
      = ∑ e : Fin 64, v1 (ix2 r e) * v3 (ix2 c e) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r c) ((contrEquiv1 dot_S1024x64_S2048x64_S1024x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 r c) ((contrEquiv1 dot_S1024x64_S2048x64_S1024x2048_1_1_0_0_n_n 64 rfl rfl).symm k) = ix2 c k := funext fun a => Fin.ext (by
    match a with
    | ⟨0, _⟩ => exact rhs_qk_0 _ _
    | ⟨1, _⟩ => exact (rhs_qk_1 _ _).trans hk)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights times values (contracted over the 2048 keys) into zero: entry (r, e) is the sum over the keys of the
    weight (r, c) times value (c, e). -/
theorem pv_apply (w : FVec Ideal S1024x2048 .f32) (v5 : FVec Ideal S2048x64 .f32) (r : Fin 1024) (e : Fin 64) :
    matmul (F := Ideal) dot_S1024x2048_S2048x64_S1024x64_1_0_0_1_n_n (some .fp32) w v5 (constant (F := Ideal) S1024x64 .f32 0x00000000#32) (ix2 r e)
      = ∑ c : Fin 2048, w (ix2 r c) * v5 (ix2 c e) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r e) ((contrEquiv1 dot_S1024x2048_S2048x64_S1024x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 r e) ((contrEquiv1 dot_S1024x2048_S2048x64_S1024x64_1_0_0_1_n_n 2048 rfl rfl).symm k) = ix2 k e := funext fun a => Fin.ext (by
    match a with
    | ⟨0, _⟩ => exact (rhs_pv_0 _ _).trans hk
    | ⟨1, _⟩ => exact rhs_pv_1 _ _)
  rw [el, er]

/-! ## The blocks' unit axes dropped -/

/-- A `[1, 1, n, 64]` block cast to `[n, 64]` reads (r, e) at (0, 0, r, e): the query block. -/
theorem cast_q (v0 : FVec Ideal S1x1x1024x64 .f32) (r : Fin 1024) (e : Fin 64) :
    shapeCast S1024x64 v0 shapeCasts_S1x1x1024x64_S1024x64 (ix2 r e) = v0 (ix4 0 0 r e) :=
  shapeCast_apply _ _ (ix2 r e) (ix4 0 0 r e) (by
    rw [Shape.rowMajor_val_four, Shape.rowMajor_val_two]
    show ((0 * 1 + 0) * 1024 + r.val) * 64 + e.val = r.val * 64 + e.val; omega)

/-- The key and value blocks likewise. -/
theorem cast_kv (v2 : FVec Ideal S1x1x2048x64 .f32) (c : Fin 2048) (e : Fin 64) :
    shapeCast S2048x64 v2 shapeCasts_S1x1x2048x64_S2048x64 (ix2 c e) = v2 (ix4 0 0 c e) :=
  shapeCast_apply _ _ (ix2 c e) (ix4 0 0 c e) (by
    rw [Shape.rowMajor_val_four, Shape.rowMajor_val_two]
    show ((0 * 1 + 0) * 2048 + c.val) * 64 + e.val = c.val * 64 + e.val; omega)

/-- The mask block `[1, 1024, 2048]` cast to `[1024, 2048]` reads (r, c) at (0, r, c). -/
theorem cast_mask (v6 : IVec S1x1024x2048 32) (r : Fin 1024) (c : Fin 2048) :
    shapeCast S1024x2048 v6 shapeCasts_S1x1024x2048_S1024x2048 (ix2 r c) = v6 (ix3 0 r c) :=
  shapeCast_apply _ _ (ix2 r c) (ix3 0 r c) (by
    rw [Shape.rowMajor_val_three, Shape.rowMajor_val_two]
    show (0 * 1024 + r.val) * 2048 + c.val = r.val * 2048 + c.val; omega)

/-! ## A row reduction kept as a column and broadcast back -/

/-- A `[1024]` vector cast to a column and broadcast along the rows reads (r, c) at `r`. -/
theorem column_apply (y : FVec Ideal S1024 .f32) (r : Fin 1024) (c : Fin 2048) :
    broadcastTo S1024x2048 (shapeCast S1024x1 y shapeCasts_S1024_S1024x1) broadcasts_S1024x1_S1024x2048 (ix2 r c) = y (ix1 r) := by
  refine (broadcastTo_apply _ broadcasts_S1024x1_S1024x2048 (ix2 r c) (ix2 r (0 : Fin 1)) (fun a => match a with
    | ⟨0, _⟩ => by show r.val = if (1024 : Nat) = 1 then 0 else r.val; rw [if_neg (by decide)]
    | ⟨1, _⟩ => by show 0 = if (1 : Nat) = 1 then 0 else c.val; rw [if_pos rfl])).trans ?_
  exact shapeCast_apply _ _ (ix2 r (0 : Fin 1)) (ix1 r) (by
    rw [Shape.rowMajor_val_one, Shape.rowMajor_val_two]
    show r.val = r.val * 1 + 0; omega)

/-- The maximum over a row, from `-∞`. -/
theorem rowmax_apply (x : FVec Ideal S1024x2048 .f32) (r : Fin 1024) :
    multiReduction (F := Ideal) .maximumf [1] S1024 x 0xFF800000#32 reduces_S1024x2048_S1024 (.inl rfl) rfl (ix1 r)
      = (Finset.univ : Finset (Fin 2048)).fold max (Ideal.ofBits .f32 0xFF800000#32) (fun c => x (ix2 r c)) := by
  refine (Ideal.multiReduction_maximumf_single x 0xFF800000#32 reduces_S1024x2048_S1024 (.inl rfl) rfl (ix1 r)).trans ?_
  have hf : (x ∘ reduces_S1024x2048_S1024.lift (ix1 r)) = fun c : Fin 2048 => x (ix2 r c) :=
    funext fun (c : Fin 2048) => congrArg x (funext fun a => Fin.ext (by match a with | ⟨0, _⟩ => rfl | ⟨1, _⟩ => rfl))
  exact congrArg (fun f : Fin 2048 → EReal => (Finset.univ : Finset (Fin 2048)).fold max (Ideal.ofBits .f32 0xFF800000#32) f) hf

/-- The sum over a row. -/
theorem rowsum_apply (x : FVec Ideal S1024x2048 .f32) (r : Fin 1024) :
    multiReduction (F := Ideal) .add [1] S1024 x 0x00000000#32 reduces_S1024x2048_S1024 (.inl rfl) rfl (ix1 r)
      = ∑ c : Fin 2048, x (ix2 r c) := by
  refine (Ideal.multiReduction_add_single x 0x00000000#32 reduces_S1024x2048_S1024 (.inl rfl) rfl (ix1 r)).trans ?_
  exact Finset.sum_congr rfl fun (c : Fin 2048) _ => congrArg x (funext fun a => Fin.ext (by match a with | ⟨0, _⟩ => rfl | ⟨1, _⟩ => rfl))

/-! ## The body's two results -/

/-- The masked, scaled scores of the block, as the body spells them. -/
def masked (v0 : FVec Ideal S1x1x1024x64 .f32) (v2 : FVec Ideal S1x1x2048x64 .f32) (v6 : IVec S1x1024x2048 32) : FVec Ideal S1024x2048 .f32 :=
  select (cmpi .sgt (shapeCast S1024x2048 v6 shapeCasts_S1x1024x2048_S1024x2048) (broadcast S1024x2048 0#32))
    (mulf (matmul (F := Ideal) dot_S1024x64_S2048x64_S1024x2048_1_1_0_0_n_n (some .fp32) (shapeCast S1024x64 v0 shapeCasts_S1x1x1024x64_S1024x64)
        (shapeCast S2048x64 v2 shapeCasts_S1x1x2048x64_S2048x64) (constant (F := Ideal) S1024x2048 .f32 0x00000000#32))
      (broadcast S1024x2048 (Scalar.ofBits (F := Ideal) .f32 0x3E000000#32)))
    (broadcast S1024x2048 (Scalar.ofBits (F := Ideal) .f32 0xCE6E6B28#32))

/-- The row softmax, as the body spells it. -/
def softmaxRows (x : FVec Ideal S1024x2048 .f32) : FVec Ideal S1024x2048 .f32 :=
  divf (exp (subf x (broadcastTo S1024x2048 (shapeCast S1024x1 (multiReduction (F := Ideal) .maximumf [1] S1024 x 0xFF800000#32 reduces_S1024x2048_S1024 (.inl rfl) rfl) shapeCasts_S1024_S1024x1) broadcasts_S1024x1_S1024x2048)))
    (broadcastTo S1024x2048 (shapeCast S1024x1 (multiReduction (F := Ideal) .add [1] S1024
      (exp (subf x (broadcastTo S1024x2048 (shapeCast S1024x1 (multiReduction (F := Ideal) .maximumf [1] S1024 x 0xFF800000#32 reduces_S1024x2048_S1024 (.inl rfl) rfl) shapeCasts_S1024_S1024x1) broadcasts_S1024x1_S1024x2048)))
      0x00000000#32 reduces_S1024x2048_S1024 (.inl rfl) rfl) shapeCasts_S1024_S1024x1) broadcasts_S1024x1_S1024x2048)

/-- The body's weights are the row softmax of its masked scores. -/
theorem pay2_eq (v0 : FVec Ideal S1x1x1024x64 .f32) (v2 : FVec Ideal S1x1x2048x64 .f32) (v6 : IVec S1x1024x2048 32) :
    k0_pay2 (F := Ideal) v0 v2 v6 = softmaxRows (masked v0 v2 v6) := rfl

/-- The masked score at (r, c) is the score of the block's query row `r` against its key row `c`. -/
theorem masked_apply (v0 : FVec Ideal S1x1x1024x64 .f32) (v2 : FVec Ideal S1x1x2048x64 .f32) (v6 : IVec S1x1024x2048 32)
    (r : Fin 1024) (c : Fin 2048) :
    masked v0 v2 v6 (ix2 r c) = score (fun e => v0 (ix4 0 0 r e)) (fun c e => v2 (ix4 0 0 c e)) (fun c => v6 (ix3 0 r c)) c := by
  unfold masked score
  rw [select_apply, mulf_apply, qk_apply]
  simp only [cast_q, cast_kv]
  show Scalar.select (IntOp.cmpi .sgt (shapeCast S1024x2048 v6 shapeCasts_S1x1024x2048_S1024x2048 (ix2 r c)) 0#32) _ _ = _
  rw [cast_mask]
  rfl

/-- The row softmax at (r, c). -/
theorem softmaxRows_apply (x : FVec Ideal S1024x2048 .f32) (r : Fin 1024) (c : Fin 2048) :
    softmaxRows x (ix2 r c)
      = Ideal.div (Ideal.exp (x (ix2 r c) - (Finset.univ : Finset (Fin 2048)).fold max (Ideal.ofBits .f32 0xFF800000#32) (fun c' => x (ix2 r c'))))
          (∑ c' : Fin 2048, Ideal.exp (x (ix2 r c') - (Finset.univ : Finset (Fin 2048)).fold max (Ideal.ofBits .f32 0xFF800000#32) (fun c'' => x (ix2 r c'')))) := by
  unfold softmaxRows
  rw [divf_apply, column_apply, rowsum_apply]
  have he : ∀ c' : Fin 2048, exp (subf x (broadcastTo S1024x2048 (shapeCast S1024x1 (multiReduction (F := Ideal) .maximumf [1] S1024 x 0xFF800000#32 reduces_S1024x2048_S1024 (.inl rfl) rfl) shapeCasts_S1024_S1024x1) broadcasts_S1024x1_S1024x2048)) (ix2 r c')
      = Ideal.exp (x (ix2 r c') - (Finset.univ : Finset (Fin 2048)).fold max (Ideal.ofBits .f32 0xFF800000#32) (fun c'' => x (ix2 r c''))) := fun c' => by
    show Ideal.exp (subf x _ (ix2 r c')) = _
    rw [subf_apply, column_apply, rowmax_apply]
  simp only [he]

/-- THE WEIGHTS the body computes: entry (r, c) is the softmax weight of key `c` for the block's query row `r`. -/
theorem pay2_apply (v0 : FVec Ideal S1x1x1024x64 .f32) (v2 : FVec Ideal S1x1x2048x64 .f32) (v6 : IVec S1x1024x2048 32)
    (r : Fin 1024) (c : Fin 2048) :
    k0_pay2 (F := Ideal) v0 v2 v6 (ix2 r c)
      = weight (fun e => v0 (ix4 0 0 r e)) (fun c e => v2 (ix4 0 0 c e)) (fun c => v6 (ix3 0 r c)) c := by
  rw [pay2_eq, softmaxRows_apply]
  simp only [masked_apply]
  rfl

/-- THE OUTPUT the body computes: entry (r, e) is entry `e` of the output row of the block's query row `r`. -/
theorem pay4_apply (v0 : FVec Ideal S1x1x1024x64 .f32) (v2 v4 : FVec Ideal S1x1x2048x64 .f32) (v6 : IVec S1x1024x2048 32)
    (r : Fin 1024) (e : Fin 64) :
    k0_pay4 (F := Ideal) v0 v2 v4 v6 (ix2 r e)
      = outRow (fun e => v0 (ix4 0 0 r e)) (fun c e => v2 (ix4 0 0 c e)) (fun c => v6 (ix3 0 r c)) (fun c e => v4 (ix4 0 0 c e)) e := by
  unfold k0_pay4 outRow
  refine (pv_apply _ _ r e).trans ?_
  exact Finset.sum_congr rfl fun c _ => by rw [pay2_apply, cast_kv]

end Cert.KernelIdeal.Body

end
-- ==== Proof.AttnBlocks.lean ====
/-
  From the blocks each grid point writes back to the two whole result arrays.

  The grid is (batch, query tile, head) = (2, 2, 16). At a point the query, output and weights windows sit at block
  (batch, head, tile) of their arrays, the key and value windows at (batch, head), the mask window at (batch, tile).
  So the query row `r` of the block is row `tile * 1024 + r` of the array, and what the body computes for it — the
  softmax weights of that row, and the output row — is exactly the whole-array attention function read at the array
  index under the block index. The weights blocks (1024 x 2048) and the output blocks (1024 x 64) tile their arrays:
  the point that covers array row `i` of (batch, head) is the one with tile `i / 1024`.
-/
import proofs.«404587_j2757369004072_3_alg».proof.Proof.Gen.KernelIdeal.Value
import proofs.«404587_j2757369004072_3_alg».proof.Proof.AttnBody

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Attn Cert.KernelIdeal.Body

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## What the body leaves in the two output blocks, at a block index -/

/-- The weights block at (·, ·, r, c): the softmax weight of key `c` for the query block's row `r`. -/
theorem wblock_apply (x0 : FVec Ideal S1x1x1024x64 .f32) (x1 x2 : FVec Ideal S1x1x2048x64 .f32) (x3 : IVec S1x1024x2048 32)
    (y0 y1 : Fin 1) (r : Fin 1024) (c : Fin 2048) :
    out0_5 (F := Ideal) x0 x1 x2 x3 (ix4 y0 y1 r c)
      = weight (fun e => x0 (ix4 0 0 r e)) (fun c e => x1 (ix4 0 0 c e)) (fun c => x3 (ix3 0 r c)) c := by
  unfold out0_5
  rw [Value.canon5_eq]
  simp only [View.ld_unit_zero (S := S1x1x1024x64) hz4, View.ld_unit_zero (S := S1x1x2048x64) hz4, View.ld_unit_zero (S := S1x1024x2048) hz3]
  have hy : Value.ix5_0 (ix4 y0 y1 r c) = ix2 r c := funext fun a => Fin.ext (by match a with | ⟨0, _⟩ => rfl | ⟨1, _⟩ => rfl)
  show k0_pay2 (F := Ideal) x0 x1 x3 (Value.ix5_0 (ix4 y0 y1 r c)) = _
  rw [hy]
  exact pay2_apply x0 x1 x3 r c

/-- The output block at (·, ·, r, e): entry `e` of the output row of the query block's row `r`. -/
theorem oblock_apply (x0 : FVec Ideal S1x1x1024x64 .f32) (x1 x2 : FVec Ideal S1x1x2048x64 .f32) (x3 : IVec S1x1024x2048 32)
    (y0 y1 : Fin 1) (r : Fin 1024) (e : Fin 64) :
    out0_4 (F := Ideal) x0 x1 x2 x3 (ix4 y0 y1 r e)
      = outRow (fun e => x0 (ix4 0 0 r e)) (fun c e => x1 (ix4 0 0 c e)) (fun c => x3 (ix3 0 r c)) (fun c e => x2 (ix4 0 0 c e)) e := by
  unfold out0_4
  rw [Value.canon4_eq]
  simp only [View.ld_unit_zero (S := S1x1x1024x64) hz4, View.ld_unit_zero (S := S1x1x2048x64) hz4, View.ld_unit_zero (S := S1x1024x2048) hz3]
  have hy : Value.ix4_0 (ix4 y0 y1 r e) = ix2 r e := funext fun a => Fin.ext (by match a with | ⟨0, _⟩ => rfl | ⟨1, _⟩ => rfl)
  show k0_pay4 (F := Ideal) x0 x1 x2 x3 (Value.ix4_0 (ix4 y0 y1 r e)) = _
  rw [hy]
  exact pay4_apply x0 x1 x2 x3 r e

/-- Equal rows give equal weights. -/
theorem weight_congr {q q' : Fin 64 → EReal} {k k' : Fin 2048 → Fin 64 → EReal} {mk mk' : Fin 2048 → BitVec 32} {c c' : Fin 2048}
    (hq : q = q') (hk : k = k') (hm : mk = mk') (hc : c = c') : weight q k mk c = weight q' k' mk' c' := by
  subst hq hk hm hc; rfl

/-- Equal rows give equal output rows. -/
theorem outRow_congr {q q' : Fin 64 → EReal} {k k' v v' : Fin 2048 → Fin 64 → EReal} {mk mk' : Fin 2048 → BitVec 32} {e e' : Fin 64}
    (hq : q = q') (hk : k = k') (hm : mk = mk') (hv : v = v') (he : e = e') : outRow q k mk v e = outRow q' k' mk' v' e' := by
  subst hq hk hm hv he; rfl

/-! ## The index maps over the 64 grid points -/

/-- The six windows' block indices at a point, relative to the weights window's (batch, head, tile, 0). -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 3) = win0_5.index t (0 : Fin 4) ∧ win0_3.index t (1 : Fin 3) = win0_5.index t (2 : Fin 4)
      ∧ win0_3.index t (2 : Fin 3) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) ≤ 1 ∧ win0_5.index t (1 : Fin 4) ≤ 15 ∧ win0_5.index t (2 : Fin 4) ≤ 1 ∧ win0_5.index t (3 : Fin 4) = 0) :=
  (by decide +kernel : ∀ t : Fin grid0.N, _)

/-- Every (batch, head, tile) is some point's. -/
theorem idx_onto : ∀ (q0 : Fin 2) (q1 : Fin 16) (q2 : Fin 2), ∃ t : Fin cfg0.N, win0_5.index t = ![q0.val, q1.val, q2.val, 0] :=
  (by decide +kernel : ∀ (q0 : Fin 2) (q1 : Fin 16) (q2 : Fin 2), ∃ t : Fin grid0.N, win0_5.index t = ![q0.val, q1.val, q2.val, 0])

/-! ## What a point writes back -/

/-- WHAT POINT `t` WRITES BACK to the weights array is block `t` of the attention weights of the argument arrays:
    the block's query row `r` is the array's row `tile * 1024 + r` of the point's (batch, head), the key block is
    all of that (batch, head)'s keys, the mask block the rows `tile * 1024 + r` of that batch's mask. -/
theorem flushed5_eq (c : Dev nD) (t : Fin cfg0.N) :
    (dats m 0 c).flushed 5 t
      = ((cfg0.win 5).blk t).view.read (Elt Ideal) (weights (V m c main_arg0) (V m c main_arg1) (V m c main_arg3)) := by
  rw [Value.flushed5]
  obtain ⟨⟨a0, a1, a2, a3⟩, ⟨b0, b1, b2, b3⟩, -, ⟨d0, d1, d2⟩, -, ⟨e0, e1, e2, e3⟩⟩ := idx_facts t
  refine funext fun (y : S1x1x1024x2048.Idx) => ?_
  obtain ⟨y0, y1, r, cc, rfl⟩ : ∃ (y0 y1 : Fin 1) (r : Fin 1024) (cc : Fin 2048), y = ix4 y0 y1 r cc := ⟨y 0, y 1, y 2, y 3, eq_ix4 y⟩
  have hy0 : y0.val < 1 := y0.isLt
  have hy1 : y1.val < 1 := y1.isLt
  show out0_5 (F := Ideal) (iblk m c 0 t) (iblk m c 1 t) (iblk m c 2 t) (iblk m c 3 t) (ix4 y0 y1 r cc)
    = weights (V m c main_arg0) (V m c main_arg1) (V m c main_arg3) (((cfg0.win 5).blk t).view.emb (ix4 y0 y1 r cc))
  refine (wblock_apply (iblk m c 0 t) (iblk m c 1 t) (iblk m c 2 t) (iblk m c 3 t) y0 y1 r cc).trans ?_
  unfold weights
  refine weight_congr ?_ ?_ ?_ ?_
  · funext e
    show V m c main_arg0 (((cfg0.win 0).blk t).view.emb (ix4 0 0 r e)) = V m c main_arg0 _
    refine congrArg _ (funext fun a => Fin.ext ?_)
    match a with
    | ⟨0, _⟩ => show win0_0.index t (0 : Fin 4) * 1 + 1 * 0 = win0_5.index t (0 : Fin 4) * 1 + 1 * y0.val; omega
    | ⟨1, _⟩ => show win0_0.index t (1 : Fin 4) * 1 + 1 * 0 = win0_5.index t (1 : Fin 4) * 1 + 1 * y1.val; omega
    | ⟨2, _⟩ => show win0_0.index t (2 : Fin 4) * 1024 + 1 * r.val = win0_5.index t (2 : Fin 4) * 1024 + 1 * r.val; omega
    | ⟨3, _⟩ => show win0_0.index t (3 : Fin 4) * 64 + 1 * e.val = e.val; omega
  · funext k e
    show V m c main_arg1 (((cfg0.win 1).blk t).view.emb (ix4 0 0 k e)) = V m c main_arg1 _
    refine congrArg _ (funext fun a => Fin.ext ?_)
    match a with
    | ⟨0, _⟩ => show win0_1.index t (0 : Fin 4) * 1 + 1 * 0 = win0_5.index t (0 : Fin 4) * 1 + 1 * y0.val; omega
    | ⟨1, _⟩ => show win0_1.index t (1 : Fin 4) * 1 + 1 * 0 = win0_5.index t (1 : Fin 4) * 1 + 1 * y1.val; omega
    | ⟨2, _⟩ => show win0_1.index t (2 : Fin 4) * 2048 + 1 * k.val = k.val; omega
    | ⟨3, _⟩ => show win0_1.index t (3 : Fin 4) * 64 + 1 * e.val = e.val; omega
  · funext k
    show V m c main_arg3 (((cfg0.win 3).blk t).view.emb (ix3 0 r k)) = V m c main_arg3 _
    refine congrArg _ (funext fun a => Fin.ext ?_)
    match a with
    | ⟨0, _⟩ => show win0_3.index t (0 : Fin 3) * 1 + 1 * 0 = win0_5.index t (0 : Fin 4) * 1 + 1 * y0.val; omega
    | ⟨1, _⟩ => show win0_3.index t (1 : Fin 3) * 1024 + 1 * r.val = win0_5.index t (2 : Fin 4) * 1024 + 1 * r.val; omega
    | ⟨2, _⟩ => show win0_3.index t (2 : Fin 3) * 2048 + 1 * k.val = k.val; omega
  · refine Fin.ext ?_
    show cc.val = win0_5.index t (3 : Fin 4) * 2048 + 1 * cc.val
    omega

/-- WHAT POINT `t` WRITES BACK to the output array is block `t` of the attention output of the argument arrays. -/
theorem flushed4_eq (c : Dev nD) (t : Fin cfg0.N) :
    (dats m 0 c).flushed 4 t
      = ((cfg0.win 4).blk t).view.read (Elt Ideal) (output (V m c main_arg0) (V m c main_arg1) (V m c main_arg2) (V m c main_arg3)) := by
  rw [Value.flushed4]
  obtain ⟨⟨a0, a1, a2, a3⟩, ⟨b0, b1, b2, b3⟩, ⟨c0, c1, c2, c3⟩, ⟨d0, d1, d2⟩, ⟨f0, f1, f2, f3⟩, ⟨e0, e1, e2, e3⟩⟩ := idx_facts t
  refine funext fun (y : S1x1x1024x64.Idx) => ?_
  obtain ⟨y0, y1, r, ee, rfl⟩ : ∃ (y0 y1 : Fin 1) (r : Fin 1024) (ee : Fin 64), y = ix4 y0 y1 r ee := ⟨y 0, y 1, y 2, y 3, eq_ix4 y⟩
  have hy0 : y0.val < 1 := y0.isLt
  have hy1 : y1.val < 1 := y1.isLt
  show out0_4 (F := Ideal) (iblk m c 0 t) (iblk m c 1 t) (iblk m c 2 t) (iblk m c 3 t) (ix4 y0 y1 r ee)
    = output (V m c main_arg0) (V m c main_arg1) (V m c main_arg2) (V m c main_arg3) (((cfg0.win 4).blk t).view.emb (ix4 y0 y1 r ee))
  refine (oblock_apply (iblk m c 0 t) (iblk m c 1 t) (iblk m c 2 t) (iblk m c 3 t) y0 y1 r ee).trans ?_
  unfold output
  refine outRow_congr ?_ ?_ ?_ ?_ ?_
  · funext e
    show V m c main_arg0 (((cfg0.win 0).blk t).view.emb (ix4 0 0 r e)) = V m c main_arg0 _
    refine congrArg _ (funext fun a => Fin.ext ?_)
    match a with
    | ⟨0, _⟩ => show win0_0.index t (0 : Fin 4) * 1 + 1 * 0 = win0_4.index t (0 : Fin 4) * 1 + 1 * y0.val; omega
    | ⟨1, _⟩ => show win0_0.index t (1 : Fin 4) * 1 + 1 * 0 = win0_4.index t (1 : Fin 4) * 1 + 1 * y1.val; omega
    | ⟨2, _⟩ => show win0_0.index t (2 : Fin 4) * 1024 + 1 * r.val = win0_4.index t (2 : Fin 4) * 1024 + 1 * r.val; omega
    | ⟨3, _⟩ => show win0_0.index t (3 : Fin 4) * 64 + 1 * e.val = e.val; omega
  · funext k e
    show V m c main_arg1 (((cfg0.win 1).blk t).view.emb (ix4 0 0 k e)) = V m c main_arg1 _
    refine congrArg _ (funext fun a => Fin.ext ?_)
    match a with
    | ⟨0, _⟩ => show win0_1.index t (0 : Fin 4) * 1 + 1 * 0 = win0_4.index t (0 : Fin 4) * 1 + 1 * y0.val; omega
    | ⟨1, _⟩ => show win0_1.index t (1 : Fin 4) * 1 + 1 * 0 = win0_4.index t (1 : Fin 4) * 1 + 1 * y1.val; omega
    | ⟨2, _⟩ => show win0_1.index t (2 : Fin 4) * 2048 + 1 * k.val = k.val; omega
    | ⟨3, _⟩ => show win0_1.index t (3 : Fin 4) * 64 + 1 * e.val = e.val; omega
  · funext k
    show V m c main_arg3 (((cfg0.win 3).blk t).view.emb (ix3 0 r k)) = V m c main_arg3 _
    refine congrArg _ (funext fun a => Fin.ext ?_)
    match a with
    | ⟨0, _⟩ => show win0_3.index t (0 : Fin 3) * 1 + 1 * 0 = win0_4.index t (0 : Fin 4) * 1 + 1 * y0.val; omega
    | ⟨1, _⟩ => show win0_3.index t (1 : Fin 3) * 1024 + 1 * r.val = win0_4.index t (2 : Fin 4) * 1024 + 1 * r.val; omega
    | ⟨2, _⟩ => show win0_3.index t (2 : Fin 3) * 2048 + 1 * k.val = k.val; omega
  · funext k e
    show V m c main_arg2 (((cfg0.win 2).blk t).view.emb (ix4 0 0 k e)) = V m c main_arg2 _
    refine congrArg _ (funext fun a => Fin.ext ?_)
    match a with
    | ⟨0, _⟩ => show win0_2.index t (0 : Fin 4) * 1 + 1 * 0 = win0_4.index t (0 : Fin 4) * 1 + 1 * y0.val; omega
    | ⟨1, _⟩ => show win0_2.index t (1 : Fin 4) * 1 + 1 * 0 = win0_4.index t (1 : Fin 4) * 1 + 1 * y1.val; omega
    | ⟨2, _⟩ => show win0_2.index t (2 : Fin 4) * 2048 + 1 * k.val = k.val; omega
    | ⟨3, _⟩ => show win0_2.index t (3 : Fin 4) * 64 + 1 * e.val = e.val; omega
  · refine Fin.ext ?_
    show ee.val = win0_4.index t (3 : Fin 4) * 64 + 1 * ee.val
    omega

/-! ## The blocks tile the arrays -/

/-- An index of the weights array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x1x1024x2048.size a ≤ (i a).val ∧ (i a).val < win0_5.index t a * S1x1x1024x2048.size a + S1x1x1024x2048.size a := by
  show i ∈ ((View.whole main_v0_1).slice (win0_5.rect t)).set ↔ _
  rw [View.set_slice_whole, Rect.mem_set_unit]
  exact Iff.rfl

/-- The same for the output array. -/
theorem mem_blk4 (t : Fin cfg0.N) (i : S2x16x2048x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

/-- Every index of the weights array is in the block of the point at its (batch, head) and tile `row / 1024`. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- Every index of the output array likewise. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  obtain ⟨-, -, -, -, ⟨f0, f1, f2, f3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The arrays after the run -/

/-- The weights array ends holding the attention weights of the argument arrays. -/
theorem final5 (c : Dev nD) :
    (dats m 0 c).arrAt 5 cfg0.N
      = weights (m ((c : Thread nD τ).loc main_arg0)) (m ((c : Thread nD τ).loc main_arg1)) (m ((c : Thread nD τ).loc main_arg3)) :=
  (dats m 0 c).arrAt_eq_of_cover 5 (weights (V m c main_arg0) (V m c main_arg1) (V m c main_arg3))
    (fun t _ => flushed5_eq m c t) cover5

/-- The output array ends holding the attention output of the argument arrays. -/
theorem final4 (c : Dev nD) :
    (dats m 0 c).arrAt 4 cfg0.N
      = output (m ((c : Thread nD τ).loc main_arg0)) (m ((c : Thread nD τ).loc main_arg1)) (m ((c : Thread nD τ).loc main_arg2))
          (m ((c : Thread nD τ).loc main_arg3)) :=
  (dats m 0 c).arrAt_eq_of_cover 4 (output (V m c main_arg0) (V m c main_arg1) (V m c main_arg2) (V m c main_arg3))
    (fun t _ => flushed4_eq m c t) cover4

/-- The kernel's run: it terminates with the output array at the attention output and the weights array at the
    attention weights of the argument arrays, which end unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.lean ====
/-
  Masked scaled dot-product attention: a tiled kernel against the plain formula.

  Both programs take queries, keys and values `[2, 16, 2048, 64]` and an integer mask `[2, 2048, 2048]` shared by
  the 16 heads, and return the attention output `[2, 16, 2048, 64]` and the softmax weights `[2, 16, 2048, 2048]`.
  Over the extended reals both compute, for every (batch, head, query row): the scores `(q · k_c) * s` against every
  key `c`, replaced by `-1e9` where the mask word is not positive; the weights `exp (score - max) / ∑ exp (score - max)`
  with the maximum taken from `-∞`; and the weights' combination of the value rows. The kernel does this for 1024
  query rows of one (batch, head) at a grid point, with the scale `s` spelt `0.125`; the reference does it for the
  whole arrays at once, with `s` spelt `1 / sqrt 64`. The two scales are the same real (`sqrt 64 = 8`), the two
  row maxima are the same fold (a further maximum with `-∞` changes nothing), the reference's `0 +` in front of the
  denominator is the denominator, and a sum is a sum whatever the tiling: no law that would need finite inputs is used.

  AttnSpec states that function; AttnRef shows the reference's two results are it; AttnBody shows what the kernel body
  computes from its blocks; AttnBlocks carries the blocks to the whole arrays. The three frames are the kernel's and
  its idealization's generated frames and the reference's generated run with the results dropped; the idealization
  rewrote nothing, so `preserves` is `True`.
-/
import proofs.«404587_j2757369004072_3_alg».proof.Defs
import proofs.«404587_j2757369004072_3_alg».proof.Proof.Gen.Kernel
import proofs.«404587_j2757369004072_3_alg».proof.Proof.Gen.Kernel.Skeleton
import proofs.«404587_j2757369004072_3_alg».proof.Proof.Gen.Kernel.Launch
import proofs.«404587_j2757369004072_3_alg».proof.Proof.Gen.Kernel.Points
import proofs.«404587_j2757369004072_3_alg».proof.Proof.Gen.Kernel.Frame
import proofs.«404587_j2757369004072_3_alg».proof.Proof.Gen.KernelIdeal
import proofs.«404587_j2757369004072_3_alg».proof.Proof.Gen.KernelIdeal.Skeleton
import proofs.«404587_j2757369004072_3_alg».proof.Proof.Gen.KernelIdeal.Launch
import proofs.«404587_j2757369004072_3_alg».proof.Proof.Gen.KernelIdeal.Points
import proofs.«404587_j2757369004072_3_alg».proof.Proof.Gen.KernelIdeal.Frame
import proofs.«404587_j2757369004072_3_alg».proof.Proof.Gen.ReferenceIdeal
import proofs.«404587_j2757369004072_3_alg».proof.Proof.Gen.Pre_finite_inputs
import proofs.«404587_j2757369004072_3_alg».proof.Proof.Gen.KernelIdeal.Value
import proofs.«404587_j2757369004072_3_alg».proof.Proof.Gen.ReferenceIdeal.Run
import proofs.«404587_j2757369004072_3_alg».proof.Proof.Gen.ReferenceIdeal.Read
import proofs.«404587_j2757369004072_3_alg».proof.Proof.AttnSpec
import proofs.«404587_j2757369004072_3_alg».proof.Proof.AttnRef
import proofs.«404587_j2757369004072_3_alg».proof.Proof.AttnBlocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the output array at `Attn.output` and the weights array at `Attn.weights` of the
    argument arrays, which agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefValue.ref_output,
      (hagree c).1, (hagree c).2.1, (hagree c).2.2.1, (hagree c).2.2.2]
  · rw [(h c).2.1, Cert.ReferenceIdeal.Read.val_main_v19_eq, Cert.ReferenceIdeal.RefValue.ref_weights,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
